-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192x8192 : Shape := ⟨2, ![8192, 8192]⟩
abbrev S64x8192 : Shape := ⟨2, ![64, 8192]⟩
abbrev S8192 : Shape := ⟨1, ![8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x8192 .f32) (main_arg1 : IVec S8192x8192 32) (main_arg2 : FVec F S64x8192 .f32) (main_arg3 : IVec S64x8192 32) (main_arg4 : FVec F S8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S64x8192 .f32 := Host.absf main_arg2
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x8192 : Shape := ⟨2, ![32, 8192]⟩
abbrev S8192x8192 : Shape := ⟨2, ![8192, 8192]⟩
abbrev S64x8192 : Shape := ⟨2, ![64, 8192]⟩
abbrev S8192 : Shape := ⟨1, ![8192]⟩
abbrev S_ : Shape := ⟨0, ![]⟩
abbrev S32 : Shape := ⟨1, ![32]⟩
abbrev S32x1 : Shape := ⟨2, ![32, 1]⟩
abbrev S1x8192 : Shape := ⟨2, ![1, 8192]⟩
abbrev S32x1024 : Shape := ⟨2, ![32, 1024]⟩
abbrev S1024x2048 : Shape := ⟨2, ![1024, 2048]⟩
abbrev S8x2048 : Shape := ⟨2, ![8, 2048]⟩
abbrev S1x2048 : Shape := ⟨2, ![1, 2048]⟩
abbrev S32x2048 : Shape := ⟨2, ![32, 2048]⟩
abbrev S128x2048 : Shape := ⟨2, ![128, 2048]⟩

abbrev nBuf : Space → Nat
  | .hbm => 29
  | .vmem => 14
  | .smem => 0
  | _ => 0

abbrev bufTy : (tb : Table) → Fin (tcTables nBuf tb) → BufTy
  | .hbm, ⟨0, _⟩ => ⟨S32x8192, .f32⟩
  | .hbm, ⟨1, _⟩ => ⟨S8192x8192, .i32⟩
  | .hbm, ⟨2, _⟩ => ⟨S64x8192, .f32⟩
  | .hbm, ⟨3, _⟩ => ⟨S64x8192, .i32⟩
  | .hbm, ⟨4, _⟩ => ⟨S8192, .f32⟩
  | .hbm, ⟨5, _⟩ => ⟨S32x8192, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x8192, .f32⟩
  | .hbm, ⟨16, _⟩ => ⟨S32x8192, .f32⟩
  | .hbm, ⟨17, _⟩ => ⟨S32x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x8192, .f32⟩
  | .hbm, ⟨22, _⟩ => ⟨S32x8192, .f32⟩
  | .hbm, ⟨23, _⟩ => ⟨S_, .f32⟩
  | .hbm, ⟨24, _⟩ => ⟨S32x8192, .f32⟩
  | .hbm, ⟨25, _⟩ => ⟨S32x8192, .f32⟩
  | .hbm, ⟨26, _⟩ => ⟨S32x8192, .bf16⟩
  | .hbm, ⟨27, _⟩ => ⟨S1x8192, .f32⟩
  | .hbm, ⟨28, _⟩ => ⟨S32x8192, .f32⟩
  | .local _ .vmem, ⟨0, _⟩ => ⟨S32x1024, .bf16⟩
  | .local _ .vmem, ⟨1, _⟩ => ⟨S32x1024, .bf16⟩
  | .local _ .vmem, ⟨2, _⟩ => ⟨S1024x2048, .i32⟩
  | .local _ .vmem, ⟨3, _⟩ => ⟨S1024x2048, .i32⟩
  | .local _ .vmem, ⟨4, _⟩ => ⟨S8x2048, .f32⟩
  | .local _ .vmem, ⟨5, _⟩ => ⟨S8x2048, .f32⟩
  | .local _ .vmem, ⟨6, _⟩ => ⟨S8x2048, .i32⟩
  | .local _ .vmem, ⟨7, _⟩ => ⟨S8x2048, .i32⟩
  | .local _ .vmem, ⟨8, _⟩ => ⟨S1x2048, .f32⟩
  | .local _ .vmem, ⟨9, _⟩ => ⟨S1x2048, .f32⟩
  | .local _ .vmem, ⟨10, _⟩ => ⟨S32x1, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v92 : BitVec 1 := Scalar.cmpi .eq arg1 c7_i32
  let v93 : BitVec 32 := Scalar.extui v92
  let c0_i32_40 : BitVec 32 := 0#32
  let v94 : BitVec 1 := Scalar.cmpi .ne v93 c0_i32_40
  v94

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S32x8192_S32_d1 : S32x8192.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  bcast_S_S32x8192 : S_.BroadcastsInDim S32x8192 (![] : Fin 0 → Fin S32x8192.rank)
  bitsLt_bf16_f32 : FTy.bits .bf16 < FTy.bits .f32
  shapeCasts_S8192_S1x8192 : S8192.ShapeCasts S1x8192
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S1024x2048_S128x2048_0_0 : ∀ a, (![0, 0] : Fin 2 → Nat) a + S128x2048.size a ≤ S1024x2048.size a
  h_S128x2048 : 0 < S128x2048.numel
  inb_S8x2048_S1x2048_0_0 : ∀ a, (![0, 0] : Fin 2 → Nat) a + S1x2048.size a ≤ S8x2048.size a
  h_S1x2048 : 0 < S1x2048.numel
  broadcasts_S1x2048_S128x2048 : S1x2048.Broadcasts S128x2048
  inb_S1024x2048_S128x2048_128_0 : ∀ a, (![128, 0] : Fin 2 → Nat) a + S128x2048.size a ≤ S1024x2048.size a
  inb_S8x2048_S1x2048_1_0 : ∀ a, (![1, 0] : Fin 2 → Nat) a + S1x2048.size a ≤ S8x2048.size a
  inb_S1024x2048_S128x2048_256_0 : ∀ a, (![256, 0] : Fin 2 → Nat) a + S128x2048.size a ≤ S1024x2048.size a
  inb_S8x2048_S1x2048_2_0 : ∀ a, (![2, 0] : Fin 2 → Nat) a + S1x2048.size a ≤ S8x2048.size a
  inb_S1024x2048_S128x2048_384_0 : ∀ a, (![384, 0] : Fin 2 → Nat) a + S128x2048.size a ≤ S1024x2048.size a
  inb_S8x2048_S1x2048_3_0 : ∀ a, (![3, 0] : Fin 2 → Nat) a + S1x2048.size a ≤ S8x2048.size a
  inb_S1024x2048_S128x2048_512_0 : ∀ a, (![512, 0] : Fin 2 → Nat) a + S128x2048.size a ≤ S1024x2048.size a
  inb_S8x2048_S1x2048_4_0 : ∀ a, (![4, 0] : Fin 2 → Nat) a + S1x2048.size a ≤ S8x2048.size a
  inb_S1024x2048_S128x2048_640_0 : ∀ a, (![640, 0] : Fin 2 → Nat) a + S128x2048.size a ≤ S1024x2048.size a
  inb_S8x2048_S1x2048_5_0 : ∀ a, (![5, 0] : Fin 2 → Nat) a + S1x2048.size a ≤ S8x2048.size a
  inb_S1024x2048_S128x2048_768_0 : ∀ a, (![768, 0] : Fin 2 → Nat) a + S128x2048.size a ≤ S1024x2048.size a
  inb_S8x2048_S1x2048_6_0 : ∀ a, (![6, 0] : Fin 2 → Nat) a + S1x2048.size a ≤ S8x2048.size a
  inb_S1024x2048_S128x2048_896_0 : ∀ a, (![896, 0] : Fin 2 → Nat) a + S128x2048.size a ≤ S1024x2048.size a
  inb_S8x2048_S1x2048_7_0 : ∀ a, (![7, 0] : Fin 2 → Nat) a + S1x2048.size a ≤ S8x2048.size a
  concatenates_S128x2048_S128x2048_S128x2048_S128x2048_S128x2048_S128x2048_S128x2048_S128x2048_S1024x2048_d0 : Shape.Concatenates [S128x2048, S128x2048, S128x2048, S128x2048, S128x2048, S128x2048, S128x2048, S128x2048] S1024x2048 0
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  inb_S1x2048_S1x2048_0_0 : ∀ a, (![0, 0] : Fin 2 → Nat) a + S1x2048.size a ≤ S1x2048.size a
  shapeCasts_S1x2048_S1x2048 : S1x2048.ShapeCasts S1x2048
  broadcasts_S1x2048_S32x2048 : S1x2048.Broadcasts S32x2048
  dot_S32x1024_S1024x2048_S32x2048_1_0_0_1_n_n_wf : DotDims.WF S32x1024 S1024x2048 S32x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x8192.size a
  hwx0_0 : ∀ i : grid0.Coords, EltTy.bits .bf16 = 32 ∨ (Rect.block (s := S32x8192) S32x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .i32 = 32 ∨ (Rect.block (s := S8192x8192) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S64x8192.size a
  hwx0_2 : ∀ i : grid0.Coords, EltTy.bits .f32 = 32 ∨ (Rect.block (s := S64x8192) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S64x8192.size a
  hwx0_3 : ∀ i : grid0.Coords, EltTy.bits .i32 = 32 ∨ (Rect.block (s := S64x8192) S8x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x2048.size a ≤ S32x8192.size a
  hwx0_6 : ∀ i : grid0.Coords, EltTy.bits .f32 = 32 ∨ (Rect.block (s := S32x8192) S32x2048.size (cc0_transform_6 i) (hinb0_6 i)).WholeWords (EltTy.packing .f32)

variable [Facts₀]

def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf

abbrev win0_0 : Pipeline.Window sig grid0 :=
  Pipeline.Window.ofSpec (Memref.whole main_v11) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S32x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8192 : Shape := ⟨2, ![32, 8192]⟩
abbrev S8192x8192 : Shape := ⟨2, ![8192, 8192]⟩
abbrev S64x8192 : Shape := ⟨2, ![64, 8192]⟩
abbrev S8192 : Shape := ⟨1, ![8192]⟩
abbrev S_ : Shape := ⟨0, ![]⟩
abbrev S32 : Shape := ⟨1, ![32]⟩
abbrev S32x1 : Shape := ⟨2, ![32, 1]⟩
abbrev S64x128x8192 : Shape := ⟨3, ![64, 128, 8192]⟩
abbrev S64x1x8192 : Shape := ⟨3, ![64, 1, 8192]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192x8192, .i32⟩
  | .hbm, ⟨2, _⟩ => ⟨S64x8192, .f32⟩
  | .hbm, ⟨3, _⟩ => ⟨S64x8192, .i32⟩
  | .hbm, ⟨4, _⟩ => ⟨S8192, .f32⟩
  | .hbm, ⟨5, _⟩ => ⟨S32x8192, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x8192, .f32⟩
  | .hbm, ⟨16, _⟩ => ⟨S32x8192, .f32⟩
  | .hbm, ⟨17, _⟩ => ⟨S32x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x8192, .f32⟩
  | .hbm, ⟨22, _⟩ => ⟨S32x8192, .f32⟩
  | .hbm, ⟨23, _⟩ => ⟨S_, .f32⟩
  | .hbm, ⟨24, _⟩ => ⟨S32x8192, .f32⟩
  | .hbm, ⟨25, _⟩ => ⟨S32x8192, .f32⟩
  | .hbm, ⟨26, _⟩ => ⟨S64x128x8192, .i32⟩
  | .hbm, ⟨27, _⟩ => ⟨S64x128x8192, .f32⟩
  | .hbm, ⟨28, _⟩ => ⟨S64x1x8192, .i32⟩
  | .hbm, ⟨29, _⟩ => ⟨S64x1x8192, .f32⟩
  | .hbm, ⟨30, _⟩ => ⟨S64x128x8192, .f32⟩
  | .hbm, ⟨31, _⟩ => ⟨S64x128x8192, .f32⟩
  | .hbm, ⟨32, _⟩ => ⟨S64x1x8192, .f32⟩
  | .hbm, ⟨33, _⟩ => ⟨S64x128x8192, .f32⟩
  | .hbm, ⟨34, _⟩ => ⟨S64x128x8192, .f32⟩
  | .hbm, ⟨35, _⟩ => ⟨S8192x8192, .f32⟩
  | .hbm, ⟨36, _⟩ => ⟨S32x8192, .f32⟩
  | .hbm, ⟨37, _⟩ => ⟨S32x8192, .f32⟩
  | .hbm, ⟨38, _⟩ => ⟨S32x8192, .f32⟩
  | .hbm, ⟨39, _⟩ => ⟨S1x8192, .f32⟩
  | .hbm, ⟨40, _⟩ => ⟨S32x8192, .f32⟩
  | .hbm, ⟨41, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  reducesTo_S32x8192_S32_d1 : S32x8192.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  bcast_S_S32x8192 : S_.BroadcastsInDim S32x8192 (![] : Fin 0 → Fin S32x8192.rank)
  shapeCasts_S8192x8192_S64x128x8192 : S8192x8192.ShapeCasts S64x128x8192
  bcast_S64x8192_S64x1x8192_0_2 : S64x8192.BroadcastsInDim S64x1x8192 (![0, 2] : Fin 2 → Fin S64x1x8192.rank)
  bcast_S64x1x8192_S64x128x8192_0_1_2 : S64x1x8192.BroadcastsInDim S64x128x8192 (![0, 1, 2] : Fin 3 → Fin S64x128x8192.rank)
  shapeCasts_S64x128x8192_S8192x8192 : S64x128x8192.ShapeCasts S8192x8192
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  dot_S32x8192_S8192x8192_S32x8192_1_0_0_1_n_n_wf : DotDims.WF S32x8192 S8192x8192 S32x8192 [1] [0] [0] [1] [] []

variable [Facts₀]

def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf

class Facts : Prop extends Facts₀ where

variable [Facts]
-- ==== Proof.Pieces.lean ====
/-
  What one grid point leaves behind, as plain functions of the blocks it was given.

  At every point the body dequantises its 1024 x 2048 block of weight codes in eight groups of 128 rows (each group
  with its own row of zero points and scales), multiplies the point's 32 x 1024 block of quantised activations by it,
  and adds the product to the accumulator. At the first point of a column block the accumulator is first set to
  zero; at the last point the accumulator is also rescaled per row, the bias added, and the result stored.
  So the accumulator after a point is `accStep` of the point's blocks and of the accumulator before it (zero at a
  first point), and the stored block is the rescaling of that.
-/
import proofs.«136339_j54468775248391_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The offsets of a whole-block access are all zero. -/
theorem zeroOff : (![0, 0] : Fin 2 → ℕ) = fun _ => 0 := by
  funext a; match a with | ⟨0, _⟩ => rfl | ⟨1, _⟩ => rfl

/-- One accumulation step: the accumulator `acc` plus the product of the activation block `x0` with the block of
    dequantised weights — group `g` of it made from rows 128 g … 128 g + 127 of the codes `x1`, row `g` of the
    scales `x2` and row `g` of the zero points `x3`. -/
def accStep (x0 : Vec F S32x1024 .bf16) (x1 : Vec F S1024x2048 .i32) (x2 : Vec F S8x2048 .f32) (x3 : Vec F S8x2048 .i32)
    (acc : Vec F S32x2048 .f32) : Vec F S32x2048 .f32 :=
  k0_pay1
    (k0_pay4 (View.ld x1 (Rect.unit ![0, 0] S128x2048.size inb_S1024x2048_S128x2048_0_0)) (View.ld x2 (Rect.unit ![0, 0] S1x2048.size inb_S8x2048_S1x2048_0_0)) (View.ld x3 (Rect.unit ![0, 0] S1x2048.size inb_S8x2048_S1x2048_0_0)))
    (k0_pay5 (View.ld x1 (Rect.unit ![128, 0] S128x2048.size inb_S1024x2048_S128x2048_128_0)) (View.ld x2 (Rect.unit ![1, 0] S1x2048.size inb_S8x2048_S1x2048_1_0)) (View.ld x3 (Rect.unit ![1, 0] S1x2048.size inb_S8x2048_S1x2048_1_0)))
    (k0_pay6 (View.ld x1 (Rect.unit ![256, 0] S128x2048.size inb_S1024x2048_S128x2048_256_0)) (View.ld x2 (Rect.unit ![2, 0] S1x2048.size inb_S8x2048_S1x2048_2_0)) (View.ld x3 (Rect.unit ![2, 0] S1x2048.size inb_S8x2048_S1x2048_2_0)))
    (k0_pay8 (k0_pay7 (View.ld x1 (Rect.unit ![384, 0] S128x2048.size inb_S1024x2048_S128x2048_384_0))) (View.ld x2 (Rect.unit ![3, 0] S1x2048.size inb_S8x2048_S1x2048_3_0)) (View.ld x3 (Rect.unit ![3, 0] S1x2048.size inb_S8x2048_S1x2048_3_0)))
    (k0_pay9 (View.ld x1 (Rect.unit ![512, 0] S128x2048.size inb_S1024x2048_S128x2048_512_0)) (View.ld x2 (Rect.unit ![4, 0] S1x2048.size inb_S8x2048_S1x2048_4_0)) (View.ld x3 (Rect.unit ![4, 0] S1x2048.size inb_S8x2048_S1x2048_4_0)))
    (k0_pay10 (View.ld x1 (Rect.unit ![640, 0] S128x2048.size inb_S1024x2048_S128x2048_640_0)) (View.ld x2 (Rect.unit ![5, 0] S1x2048.size inb_S8x2048_S1x2048_5_0)) (View.ld x3 (Rect.unit ![5, 0] S1x2048.size inb_S8x2048_S1x2048_5_0)))
    (k0_pay11 (View.ld x1 (Rect.unit ![768, 0] S128x2048.size inb_S1024x2048_S128x2048_768_0)) (View.ld x2 (Rect.unit ![6, 0] S1x2048.size inb_S8x2048_S1x2048_6_0)) (View.ld x3 (Rect.unit ![6, 0] S1x2048.size inb_S8x2048_S1x2048_6_0)))
    (View.ld x1 (Rect.unit ![896, 0] S128x2048.size inb_S1024x2048_S128x2048_896_0))
    (View.ld x2 (Rect.unit ![7, 0] S1x2048.size inb_S8x2048_S1x2048_7_0))
    (View.ld x3 (Rect.unit ![7, 0] S1x2048.size inb_S8x2048_S1x2048_7_0))
    acc x0

/-- At the first point of a column block the accumulator ends at one step from zero. -/
theorem sout_first (c : Dev nD) (i : grid0.Coords) (arg2 : Memref sig .tc .vmem S32x1024 .bf16) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S1x2048 .f32) (harg6 : arg6.IsWhole) (arg7 : Memref sig .tc .vmem S32x1 .f32) (harg7 : arg7.IsWhole) (arg8 : Memref sig .tc .vmem S32x2048 .f32) (harg8 : arg8.IsWhole) (arg9 : Memref sig .tc .vmem S32x2048 .f32) (harg9 : arg9.IsWhole) (hc0 : cond0_0 i) (hc1 : ¬cond0_1 i)
    (x0 : Vec F S32x1024 .bf16) (x1 : Vec F S1024x2048 .i32) (x2 : Vec F S8x2048 .f32) (x3 : Vec F S8x2048 .i32) (x4 : Vec F S1x2048 .f32) (x5 : Vec F S32x1 .f32) :
    sout0_A_0 c i arg2 harg2 arg3 harg3 arg4 harg4 arg5 harg5 arg6 harg6 arg7 harg7 arg8 harg8 arg9 harg9 hc0 hc1 x0 x1 x2 x3 x4 x5 = accStep x0 x1 x2 x3 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S32x2048) zeroOff, View.readCov_unit_zero (S := S32x2048) _ zeroOff]
  simp only [View.readAt_eq_ld, harg2.read_unread, harg3.read_unread, harg4.read_unread, harg5.read_unread,
    View.ld_unit_zero (S := S32x1024) zeroOff]
  rfl

/-- At a middle point the accumulator ends at one step from what the point before left. -/
theorem sout_middle (c : Dev nD) (i : grid0.Coords) (arg2 : Memref sig .tc .vmem S32x1024 .bf16) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S1x2048 .f32) (harg6 : arg6.IsWhole) (arg7 : Memref sig .tc .vmem S32x1 .f32) (harg7 : arg7.IsWhole) (arg8 : Memref sig .tc .vmem S32x2048 .f32) (harg8 : arg8.IsWhole) (arg9 : Memref sig .tc .vmem S32x2048 .f32) (harg9 : arg9.IsWhole) (hc0 : ¬cond0_0 i) (hc1 : ¬cond0_1 i)
    (x0 : Vec F S32x1024 .bf16) (x1 : Vec F S1024x2048 .i32) (x2 : Vec F S8x2048 .f32) (x3 : Vec F S8x2048 .i32) (x4 : Vec F S1x2048 .f32) (x5 : Vec F S32x1 .f32) (xs0 : Vec F S32x2048 .f32) :
    sout0_B_0 c i arg2 harg2 arg3 harg3 arg4 harg4 arg5 harg5 arg6 harg6 arg7 harg7 arg8 harg8 arg9 harg9 hc0 hc1 x0 x1 x2 x3 x4 x5 xs0 = accStep x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S32x2048) zeroOff]
  simp only [View.readAt_eq_ld, harg2.read_unread, harg3.read_unread, harg4.read_unread, harg5.read_unread, harg9.read_unread,
    View.ld_unit_zero (S := S32x1024) zeroOff, View.ld_unit_zero (S := S32x2048) zeroOff]
  rfl

/-- At the last point of a column block the accumulator ends at one step from what the point before left … -/
theorem sout_last (c : Dev nD) (i : grid0.Coords) (arg2 : Memref sig .tc .vmem S32x1024 .bf16) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S1x2048 .f32) (harg6 : arg6.IsWhole) (arg7 : Memref sig .tc .vmem S32x1 .f32) (harg7 : arg7.IsWhole) (arg8 : Memref sig .tc .vmem S32x2048 .f32) (harg8 : arg8.IsWhole) (arg9 : Memref sig .tc .vmem S32x2048 .f32) (harg9 : arg9.IsWhole) (hc0 : ¬cond0_0 i) (hc1 : cond0_1 i)
    (x0 : Vec F S32x1024 .bf16) (x1 : Vec F S1024x2048 .i32) (x2 : Vec F S8x2048 .f32) (x3 : Vec F S8x2048 .i32) (x4 : Vec F S1x2048 .f32) (x5 : Vec F S32x1 .f32) (xs0 : Vec F S32x2048 .f32) :
    sout0_C_0 c i arg2 harg2 arg3 harg3 arg4 harg4 arg5 harg5 arg6 harg6 arg7 harg7 arg8 harg8 arg9 harg9 hc0 hc1 x0 x1 x2 x3 x4 x5 xs0 = accStep x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S32x2048) zeroOff]
  simp only [View.readAt_eq_ld, harg2.read_unread, harg3.read_unread, harg4.read_unread, harg5.read_unread, harg9.read_unread,
    View.ld_unit_zero (S := S32x1024) zeroOff, View.ld_unit_zero (S := S32x2048) zeroOff]
  rfl

/-- … and the stored block is that accumulator rescaled by the row scales `x5`, plus the bias row `x4`. -/
theorem out_last (c : Dev nD) (i : grid0.Coords) (arg2 : Memref sig .tc .vmem S32x1024 .bf16) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S1x2048 .f32) (harg6 : arg6.IsWhole) (arg7 : Memref sig .tc .vmem S32x1 .f32) (harg7 : arg7.IsWhole) (arg8 : Memref sig .tc .vmem S32x2048 .f32) (harg8 : arg8.IsWhole) (arg9 : Memref sig .tc .vmem S32x2048 .f32) (harg9 : arg9.IsWhole) (hc0 : ¬cond0_0 i) (hc1 : cond0_1 i)
    (x0 : Vec F S32x1024 .bf16) (x1 : Vec F S1024x2048 .i32) (x2 : Vec F S8x2048 .f32) (x3 : Vec F S8x2048 .i32) (x4 : Vec F S1x2048 .f32) (x5 : Vec F S32x1 .f32) (xs0 : Vec F S32x2048 .f32) :
    out0_C_6 c i arg2 harg2 arg3 harg3 arg4 harg4 arg5 harg5 arg6 harg6 arg7 harg7 arg8 harg8 arg9 harg9 hc0 hc1 x0 x1 x2 x3 x4 x5 xs0 = k0_pay2 (accStep x0 x1 x2 x3 xs0) x5 x4 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S32x2048) zeroOff, View.readCov_unit_zero (S := S32x2048) _ zeroOff]
  simp only [View.readAt_eq_ld, harg2.read_unread, harg3.read_unread, harg4.read_unread, harg5.read_unread, harg6.read_unread,
    harg7.read_unread, harg9.read_unread,
    View.ld_unit_zero (S := S32x1024) zeroOff, View.ld_unit_zero (S := S32x2048) zeroOff,
    View.ld_unit_zero (S := S32x1) zeroOff, View.ld_unit_zero (S := S1x2048) zeroOff]
  rfl

end Cert.KernelIdeal.Pieces

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Payload.lean ====
/-
  One accumulation step and the final rescaling, read at an entry (p, q) of the 32 x 2048 block, over the extended reals.

  The dequantised weight block: row r of it belongs to group r / 128, whose zero points and scales are row r / 128 of the
  point's 8 x 2048 blocks, so its entry (r, q) is (code (r, q) - zero (r / 128, q)) · scale (r / 128, q). Narrowing it
  to the shorter float format changes nothing over the reals. The eight groups are laid one under the other, the
  product with the activation block is the plain sum over the block's 1024 rows, and it is added to the accumulator.
  The rescaling multiplies entry (p, q) by the row's scale (p, 0) and adds the bias (0, q).
-/
import proofs.«136339_j54468775248391_1_alg».proof.Proof.Pieces
import proofs.«136339_j54468775248391_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pay

open Cert.KernelIdeal Cert.KernelIdeal.Gen Cert.KernelIdeal.Pieces
open Idealize.ShloMosaic Idealize.ShloMosaic.ValueIdx

/-! ## The three broadcasts of the body -/

/-- A row broadcast down 128 rows reads the row. -/
theorem bcastRow128 {α : Type} (x : S1x2048.Idx → α) (h : S1x2048.Broadcasts S128x2048) (r : Fin 128) (q : Fin 2048) :
    broadcastTo S128x2048 x h (ix2 r q) = x (ix2 0 q) :=
  broadcastTo_apply x h (ix2 r q) (ix2 0 q) (fun a => match a with
    | ⟨0, _⟩ => by show 0 = if (1 : Nat) = 1 then 0 else _; rw [if_pos rfl]
    | ⟨1, _⟩ => by show q.val = if (2048 : Nat) = 1 then 0 else q.val; rw [if_neg (by decide)])

/-- A row broadcast down 32 rows reads the row. -/
theorem bcastRow32 {α : Type} (x : S1x2048.Idx → α) (h : S1x2048.Broadcasts S32x2048) (p : Fin 32) (q : Fin 2048) :
    broadcastTo S32x2048 x h (ix2 p q) = x (ix2 0 q) :=
  broadcastTo_apply x h (ix2 p q) (ix2 0 q) (fun a => match a with
    | ⟨0, _⟩ => by show 0 = if (1 : Nat) = 1 then 0 else _; rw [if_pos rfl]
    | ⟨1, _⟩ => by show q.val = if (2048 : Nat) = 1 then 0 else q.val; rw [if_neg (by decide)])

/-- A column broadcast across 2048 columns reads the column. -/
theorem bcastCol32 {α : Type} (x : S32x1.Idx → α) (h : S32x1.Broadcasts S32x2048) (p : Fin 32) (q : Fin 2048) :
    broadcastTo S32x2048 x h (ix2 p q) = x (ix2 p 0) :=
  broadcastTo_apply x h (ix2 p q) (ix2 p 0) (fun a => match a with
    | ⟨0, _⟩ => by show p.val = if (32 : Nat) = 1 then 0 else p.val; rw [if_neg (by decide)]
    | ⟨1, _⟩ => by show 0 = if (1 : Nat) = 1 then 0 else _; rw [if_pos rfl])

/-! ## One group of dequantised weights -/

/-- A group at an entry: the code minus the group's zero point, as reals, times the group's scale. -/
theorem group_apply (v3 : Vec Ideal S128x2048 .i32) (v5 : Vec Ideal S1x2048 .f32) (v6 : Vec Ideal S1x2048 .i32)
    (r : Fin 128) (q : Fin 2048) :
    k0_pay4 (F := Ideal) v3 v5 v6 (ix2 r q)
      = (FloatOps.sitofp (F := Ideal) .f32 (v3 (ix2 r q)) - FloatOps.sitofp (F := Ideal) .f32 (v6 (ix2 0 q))) * v5 (ix2 0 q) := by
  unfold k0_pay4
  show (sitofp (F := Ideal) .f32 v3 (ix2 r q) - broadcastTo S128x2048 (sitofp (F := Ideal) .f32 v6) _ (ix2 r q))
      * broadcastTo S128x2048 v5 _ (ix2 r q) = _
  rw [bcastRow128, bcastRow128]
  rfl

/-- The entry of the point's weight-code block a group's load reads. -/
theorem ldCodes (x1 : Vec Ideal S1024x2048 .i32) (o : ℕ) (inb : ∀ a, (![o, 0] : Fin 2 → ℕ) a + S128x2048.size a ≤ S1024x2048.size a)
    (r : Fin 128) (q : Fin 2048) (k : Fin 1024) (hk : k.val = o + r.val) :
    View.ld x1 (Rect.unit ![o, 0] S128x2048.size inb) (ix2 r q) = x1 (ix2 k q) :=
  congrArg x1 (funext fun a => Fin.ext (by
    match a with
    | ⟨0, _⟩ => show o + 1 * r.val = k.val; omega
    | ⟨1, _⟩ => show 0 + 1 * q.val = q.val; omega))

/-- The entry of a per-group block (scales or zero points) a group's load reads. -/
theorem ldGroup {e : EltTy} (x : Vec Ideal S8x2048 e) (g : ℕ) (inb : ∀ a, (![g, 0] : Fin 2 → ℕ) a + S1x2048.size a ≤ S8x2048.size a)
    (q : Fin 2048) (g' : Fin 8) (hg : g'.val = g) :
    View.ld x (Rect.unit ![g, 0] S1x2048.size inb) (ix2 0 q) = x (ix2 g' q) :=
  congrArg x (funext fun a => Fin.ext (by
    match a with
    | ⟨0, _⟩ => show g + 1 * 0 = g'.val; omega
    | ⟨1, _⟩ => show 0 + 1 * q.val = q.val; omega))

/-- The dequantised weight at row `k`, column `q` of the point's block. -/
def wblk (x1 : Vec Ideal S1024x2048 .i32) (x2 : Vec Ideal S8x2048 .f32) (x3 : Vec Ideal S8x2048 .i32) (k : Fin 1024) (q : Fin 2048) : EReal :=
  (FloatOps.sitofp (F := Ideal) .f32 (x1 (ix2 k q)) - FloatOps.sitofp (F := Ideal) .f32 (x3 (ix2 ⟨k.val / 128, by have := k.isLt; omega⟩ q)))
    * x2 (ix2 ⟨k.val / 128, by have := k.isLt; omega⟩ q)

/-- Group `g` loaded from the point's blocks, at an entry, is the dequantised weight at row 128 g + r. -/
theorem groupAt (x1 : Vec Ideal S1024x2048 .i32) (x2 : Vec Ideal S8x2048 .f32) (x3 : Vec Ideal S8x2048 .i32) (o g : ℕ)
    (inb1 : ∀ a, (![o, 0] : Fin 2 → ℕ) a + S128x2048.size a ≤ S1024x2048.size a)
    (inb2 : ∀ a, (![g, 0] : Fin 2 → ℕ) a + S1x2048.size a ≤ S8x2048.size a)
    (r : Fin 128) (q : Fin 2048) (k : Fin 1024) (hk : k.val = o + r.val) (ho : o = 128 * g) :
    k0_pay4 (F := Ideal) (View.ld x1 (Rect.unit ![o, 0] S128x2048.size inb1)) (View.ld x2 (Rect.unit ![g, 0] S1x2048.size inb2))
        (View.ld x3 (Rect.unit ![g, 0] S1x2048.size inb2)) (ix2 r q) = wblk x1 x2 x3 k q := by
  have hg : k.val / 128 = g := by have := r.isLt; omega
  rw [group_apply, ldCodes x1 o inb1 r q k hk, ldGroup x3 g inb2 q ⟨k.val / 128, by have := k.isLt; omega⟩ hg,
    ldGroup x2 g inb2 q ⟨k.val / 128, by have := k.isLt; omega⟩ hg]
  rfl

/-! ## The eight groups stacked, the step, the rescaling -/

/-- A stack of pieces of 128 rows, read at row 128 n + r: piece `n` at row `r`. -/
theorem stackAt {α : Type} (xs : List ((s : Shape) × (s.Idx → α))) (h : Shape.Concatenates (xs.map (·.1)) S1024x2048 0)
    (k : Fin 1024) (q : Fin 2048) (n : ℕ) (hn : n < xs.length) (c : S128x2048.Idx → α) (hx : xs[n] = ⟨S128x2048, c⟩)
    (hpre : (((xs.take n).map (·.1)).map fun s => if h : s.rank = S1024x2048.rank then s.size ((0 : Fin S1024x2048.rank).cast h.symm) else 0).sum = 128 * n)
    (r : Fin 128) (hkr : k.val = 128 * n + r.val) :
    concatenate S1024x2048 0 xs h (ix2 k q) = c (ix2 r q) :=
  concatenate_apply_piece 0 xs h (ix2 k q) n hn S128x2048 c hx rfl (128 * n) hpre (ix2 r q)
    (fun b hb => by
      match b with
      | ⟨0, _⟩ => exact absurd rfl hb
      | ⟨1, _⟩ => rfl)
    (by show 128 * n + r.val = k.val; omega)

/-- One accumulation step at an entry: the accumulator's entry plus the sum over the block's 1024 rows of activation
    times dequantised weight. -/
theorem accStep_apply (x0 : Vec Ideal S32x1024 .bf16) (x1 : Vec Ideal S1024x2048 .i32) (x2 : Vec Ideal S8x2048 .f32)
    (x3 : Vec Ideal S8x2048 .i32) (acc : Vec Ideal S32x2048 .f32) (p : Fin 32) (q : Fin 2048) :
    accStep (F := Ideal) x0 x1 x2 x3 acc (ix2 p q) = acc (ix2 p q) + ∑ k : Fin 1024, x0 (ix2 p k) * wblk x1 x2 x3 k q := by
  unfold accStep k0_pay1
  simp only [shapeCast_self]
  show acc (ix2 p q) + matmul (F := Ideal) dot_S32x1024_S1024x2048_S32x2048_1_0_0_1_n_n none x0 _ (constant (F := Ideal) S32x2048 .f32 0x00000000#32) (ix2 p q) = _
  rw [Cert.PlainDot.matmul_zero_apply ⟨rfl, rfl, rfl, rfl, rfl, rfl⟩ rfl rfl]
  refine congrArg _ (Finset.sum_congr rfl fun k _ => congrArg _ ?_)
  have hk := k.isLt
  obtain ⟨g, hg, r, hkr⟩ : ∃ g : ℕ, g < 8 ∧ ∃ r : Fin 128, k.val = 128 * g + r.val :=
    ⟨k.val / 128, by omega, ⟨k.val % 128, Nat.mod_lt _ (by decide)⟩, by show k.val = 128 * (k.val / 128) + k.val % 128; omega⟩
  interval_cases g
  · exact (stackAt _ _ k q 0 (by show (0 : ℕ) < 8; omega) _ rfl rfl r hkr).trans (groupAt x1 x2 x3 0 0 _ _ r q k (by omega) rfl)
  · exact (stackAt _ _ k q 1 (by show (1 : ℕ) < 8; omega) _ rfl rfl r hkr).trans (groupAt x1 x2 x3 128 1 _ _ r q k (by omega) rfl)
  · exact (stackAt _ _ k q 2 (by show (2 : ℕ) < 8; omega) _ rfl rfl r hkr).trans (groupAt x1 x2 x3 256 2 _ _ r q k (by omega) rfl)
  · exact (stackAt _ _ k q 3 (by show (3 : ℕ) < 8; omega) _ rfl rfl r hkr).trans (groupAt x1 x2 x3 384 3 _ _ r q k (by omega) rfl)
  · exact (stackAt _ _ k q 4 (by show (4 : ℕ) < 8; omega) _ rfl rfl r hkr).trans (groupAt x1 x2 x3 512 4 _ _ r q k (by omega) rfl)
  · exact (stackAt _ _ k q 5 (by show (5 : ℕ) < 8; omega) _ rfl rfl r hkr).trans (groupAt x1 x2 x3 640 5 _ _ r q k (by omega) rfl)
  · exact (stackAt _ _ k q 6 (by show (6 : ℕ) < 8; omega) _ rfl rfl r hkr).trans (groupAt x1 x2 x3 768 6 _ _ r q k (by omega) rfl)
  · exact (stackAt _ _ k q 7 (by show (7 : ℕ) < 8; omega) _ rfl rfl r hkr).trans (groupAt x1 x2 x3 896 7 _ _ r q k (by omega) rfl)

/-- The rescaling at an entry: the accumulator's entry times the row's scale, plus the column's bias. -/
theorem rescale_apply (a : Vec Ideal S32x2048 .f32) (x5 : Vec Ideal S32x1 .f32) (x4 : Vec Ideal S1x2048 .f32) (p : Fin 32) (q : Fin 2048) :
    k0_pay2 (F := Ideal) a x5 x4 (ix2 p q) = a (ix2 p q) * x5 (ix2 p 0) + x4 (ix2 0 q) := by
  unfold k0_pay2
  simp only [shapeCast_self]
  show a (ix2 p q) * broadcastTo S32x2048 x5 _ (ix2 p q) + broadcastTo S32x2048 x4 _ (ix2 p q) = _
  rw [bcastCol32, bcastRow32]

end Cert.KernelIdeal.Pay

end
-- ==== Proof.Spec.lean ====
/-
  What both programs compute, as one function of the arrays.

  The activations are quantised per row: with s(p) the row's scale, xq (p, k) is the rounded and clipped quotient
  x (p, k) / s(p). Both programs form xq and s by the same host operations, so here they are just two arrays.
  The weights are stored as integer codes qw (k, n) with, per group of 128 consecutive reduction rows, an integer
  zero point qz (k / 128, n) and a scale sc (k / 128, n); the dequantised weight is

      w (k, n) = (qw (k, n) - qz (k / 128, n)) · sc (k / 128, n),

  the integers read as reals. The result is

      out (p, n) = (∑ k < 8192, xq (p, k) · w (k, n)) · s (p) + bias (n).

  The kernel walks the reduction axis in 8 blocks of 1024 rows, adding each block's partial product to an accumulator
  that starts at zero; the reference takes the whole sum at once. The two agree because a sum over 8192 positions is
  the sum over the 8 blocks of the sums inside each block: addition on the extended reals is commutative and
  associative, and nothing else is used, so no finiteness is needed.
-/
import Idealize.ShloMosaic.Lib.ValueIdx
import Idealize.ShloMosaic.PureOps.Ideal.Laws

noncomputable section

open scoped BigOperators

namespace Cert.W4A8

open Idealize.ShloMosaic Idealize.ShloMosaic.ValueIdx

/-- The activations, and the result: 32 rows, 8192 columns. -/
abbrev SAct : Shape := ⟨2, ![32, 8192]⟩
/-- The integer weight codes: 8192 reduction rows, 8192 output columns. -/
abbrev SWgt : Shape := ⟨2, ![8192, 8192]⟩
/-- Per-group scales and zero points: 64 groups of 128 reduction rows, 8192 output columns. -/
abbrev SGrp : Shape := ⟨2, ![64, 8192]⟩
/-- The per-row activation scale, as a column. -/
abbrev SScl : Shape := ⟨2, ![32, 1]⟩
/-- The bias, one entry per output column. -/
abbrev SBias : Shape := ⟨1, ![8192]⟩

/-- The group a reduction row belongs to: 128 consecutive rows share a scale and a zero point. -/
def grp (k : Fin 8192) : Fin 64 := ⟨k.val / 128, by have := k.isLt; omega⟩

/-- The dequantised weight at reduction row `k`, output column `n`: the code minus its group's zero point, both read
    as signed integers, times the group's scale. -/
def deq (qw : SWgt.Idx → BitVec 32) (sc : SGrp.Idx → EReal) (qz : SGrp.Idx → BitVec 32) (k n : Fin 8192) : EReal :=
  (FloatOps.sitofp (F := Ideal) .f32 (qw (ix2 k n)) - FloatOps.sitofp (F := Ideal) .f32 (qz (ix2 (grp k) n))) * sc (ix2 (grp k) n)

/-- The result: the quantised activations times the dequantised weights, rescaled per row, plus the bias. -/
def result (xq : SAct.Idx → EReal) (s : SScl.Idx → EReal) (qw : SWgt.Idx → BitVec 32) (sc : SGrp.Idx → EReal)
    (qz : SGrp.Idx → BitVec 32) (bias : SBias.Idx → EReal) : SAct.Idx → EReal :=
  fun i => (∑ k : Fin 8192, xq (ix2 (i 0) k) * deq qw sc qz k (i 1)) * s (ix2 (i 0) 0) + bias (ix1 (i 1))

/-- Reduction row `r` of block `b` (the block index taken modulo 8, so that it is defined for every natural). -/
def rowOf (b : ℕ) (r : Fin 1024) : Fin 8192 := ⟨(b % 8) * 1024 + r.val, by have := r.isLt; have := Nat.mod_lt b (show 0 < 8 by decide); omega⟩

/-- A sum over the 8192 reduction rows is the sum over the 8 blocks of the sums over each block's 1024 rows. -/
theorem sum_blocks (f : Fin 8192 → EReal) :
    ∑ k : Fin 8192, f k = ∑ b ∈ Finset.range 8, ∑ r : Fin 1024, f (rowOf b r) := by
  rw [Finset.sum_range (fun b => ∑ r : Fin 1024, f (rowOf b r))]
  rw [← Equiv.sum_comp (finProdFinEquiv (m := 8) (n := 1024)) f, Fintype.sum_prod_type]
  refine Finset.sum_congr rfl fun b _ => Finset.sum_congr rfl fun r _ => congrArg f (Fin.ext ?_)
  have hb := b.isLt
  simp only [finProdFinEquiv_apply_val, rowOf, Nat.mod_eq_of_lt hb]
  omega

end Cert.W4A8

end
-- ==== Proof.KernelValue.lean ====
/-
  The idealized kernel's result array, as the one function of the arrays the specification names.

  The grid has 32 points: point t works on output column block t / 8 (2048 columns) and reduction block t % 8
  (1024 rows). Its blocks are read off the arrays the region finds at those offsets; one step adds the block's partial
  product to the accumulator, which is reset at the first point of each column block; so after the last point of a
  column block the accumulator holds the sum of the eight partial products, that is the whole sum over the 8192
  reduction rows; that point rescales it, adds the bias and writes the block back. The four write-backs cover the
  result array.
-/
import proofs.«136339_j54468775248391_1_alg».proof.Proof.Gen.KernelIdeal.Value
import proofs.«136339_j54468775248391_1_alg».proof.Proof.Pieces
import proofs.«136339_j54468775248391_1_alg».proof.Proof.Payload
import proofs.«136339_j54468775248391_1_alg».proof.Proof.Spec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Value Cert.KernelIdeal.Pieces Cert.KernelIdeal.Pay Cert.W4A8
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays as the region finds them, and the blocks of a point -/

/-- The quantised activations. -/
abbrev xqA (c : Dev nD) : Vec Ideal S32x8192 .bf16 := V m c main_v11
/-- The weight codes. -/
abbrev qwA (c : Dev nD) : Vec Ideal S8192x8192 .i32 := V m c main_arg1
/-- The group scales. -/
abbrev scA (c : Dev nD) : Vec Ideal S64x8192 .f32 := V m c main_arg2
/-- The group zero points. -/
abbrev qzA (c : Dev nD) : Vec Ideal S64x8192 .i32 := V m c main_arg3
/-- The bias, as one row. -/
abbrev bA (c : Dev nD) : Vec Ideal S1x8192 .f32 := V m c main_v12
/-- The activations' row scales, as one column. -/
abbrev sxA (c : Dev nD) : Vec Ideal S32x1 .f32 := V m c main_v6

/-- Point `t`'s block of each input, at its literal type. -/
abbrev xb (c : Dev nD) (t : Fin cfg0.N) : Vec Ideal S32x1024 .bf16 := iblk m c 0 t
abbrev wb (c : Dev nD) (t : Fin cfg0.N) : Vec Ideal S1024x2048 .i32 := iblk m c 1 t
abbrev sb (c : Dev nD) (t : Fin cfg0.N) : Vec Ideal S8x2048 .f32 := iblk m c 2 t
abbrev zb (c : Dev nD) (t : Fin cfg0.N) : Vec Ideal S8x2048 .i32 := iblk m c 3 t
abbrev bb (c : Dev nD) (t : Fin cfg0.N) : Vec Ideal S1x2048 .f32 := iblk m c 4 t
abbrev rb (c : Dev nD) (t : Fin cfg0.N) : Vec Ideal S32x1 .f32 := iblk m c 5 t

/-- Output column `q` of column block `n / 8` (taken modulo 4, so that it is defined for every natural). -/
def colOf (n : ℕ) (q : Fin 2048) : Fin 8192 := ⟨(n / 8 % 4) * 2048 + q.val, by have := q.isLt; have := Nat.mod_lt (n / 8) (show 0 < 4 by decide); omega⟩

/-- The printed index maps, decided over the grid: the reduction block is t % 8, the column block t / 8. -/
theorem idx_maps : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = t.val % 8 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = 0
    ∧ win0_6.index t (0 : Fin 2) = 0 ∧ win0_6.index t (1 : Fin 2) = t.val / 8 :=
  (by decide +kernel : ∀ t : Fin grid0.N, _)

/-- The activation block: all 32 rows, columns of reduction block t % 8. -/
theorem xb_apply (c : Dev nD) (t : Fin cfg0.N) (p : Fin 32) (r : Fin 1024) :
    xb m c t (ix2 p r) = xqA m c (ix2 p (rowOf t.val r)) := by
  obtain ⟨e0, e1, -⟩ := idx_maps t
  show V m c main_v11 (((cfg0.win 0).blk t).view.emb (ix2 p r)) = V m c main_v11 (ix2 p (rowOf t.val r))
  refine congrArg _ (funext fun a => Fin.ext ?_)
  match a with
  | ⟨0, _⟩ => show win0_0.index t (0 : Fin 2) * 32 + 1 * p.val = p.val; rw [e0]; omega
  | ⟨1, _⟩ => show win0_0.index t (1 : Fin 2) * 1024 + 1 * r.val = (t.val % 8) * 1024 + r.val; rw [e1]; omega

/-- The weight-code block: rows of reduction block t % 8, columns of column block t / 8. -/
theorem wb_apply (c : Dev nD) (t : Fin cfg0.N) (k : Fin 1024) (q : Fin 2048) :
    wb m c t (ix2 k q) = qwA m c (ix2 (rowOf t.val k) (colOf t.val q)) := by
  obtain ⟨-, -, e0, e1, -⟩ := idx_maps t
  have hN : t.val < 32 := lt_of_lt_of_eq t.isLt (show cfg0.N = 32 from N_0)
  show V m c main_arg1 (((cfg0.win 1).blk t).view.emb (ix2 k q)) = V m c main_arg1 (ix2 (rowOf t.val k) (colOf t.val q))
  refine congrArg _ (funext fun a => Fin.ext ?_)
  match a with
  | ⟨0, _⟩ => show win0_1.index t (0 : Fin 2) * 1024 + 1 * k.val = (t.val % 8) * 1024 + k.val; rw [e0]; omega
  | ⟨1, _⟩ => show win0_1.index t (1 : Fin 2) * 2048 + 1 * q.val = (t.val / 8 % 4) * 2048 + q.val; rw [e1]; omega

/-- The scale block: the 8 groups of reduction block t % 8, columns of column block t / 8. -/
theorem sb_apply (c : Dev nD) (t : Fin cfg0.N) (g : Fin 8) (q : Fin 2048) (G : Fin 64) (hG : G.val = (t.val % 8) * 8 + g.val) :
    sb m c t (ix2 g q) = scA m c (ix2 G (colOf t.val q)) := by
  obtain ⟨-, -, -, -, e0, e1, -⟩ := idx_maps t
  have hN : t.val < 32 := lt_of_lt_of_eq t.isLt (show cfg0.N = 32 from N_0)
  show V m c main_arg2 (((cfg0.win 2).blk t).view.emb (ix2 g q)) = V m c main_arg2 (ix2 G (colOf t.val q))
  refine congrArg _ (funext fun a => Fin.ext ?_)
  match a with
  | ⟨0, _⟩ => show win0_2.index t (0 : Fin 2) * 8 + 1 * g.val = G.val; rw [e0]; omega
  | ⟨1, _⟩ => show win0_2.index t (1 : Fin 2) * 2048 + 1 * q.val = (t.val / 8 % 4) * 2048 + q.val; rw [e1]; omega

/-- The zero-point block, likewise. -/
theorem zb_apply (c : Dev nD) (t : Fin cfg0.N) (g : Fin 8) (q : Fin 2048) (G : Fin 64) (hG : G.val = (t.val % 8) * 8 + g.val) :
    zb m c t (ix2 g q) = qzA m c (ix2 G (colOf t.val q)) := by
  obtain ⟨-, -, -, -, -, -, e0, e1, -⟩ := idx_maps t
  have hN : t.val < 32 := lt_of_lt_of_eq t.isLt (show cfg0.N = 32 from N_0)
  show V m c main_arg3 (((cfg0.win 3).blk t).view.emb (ix2 g q)) = V m c main_arg3 (ix2 G (colOf t.val q))
  refine congrArg _ (funext fun a => Fin.ext ?_)
  match a with
  | ⟨0, _⟩ => show win0_3.index t (0 : Fin 2) * 8 + 1 * g.val = G.val; rw [e0]; omega
  | ⟨1, _⟩ => show win0_3.index t (1 : Fin 2) * 2048 + 1 * q.val = (t.val / 8 % 4) * 2048 + q.val; rw [e1]; omega

/-- The bias block: the columns of column block t / 8. -/
theorem bb_apply (c : Dev nD) (t : Fin cfg0.N) (q : Fin 2048) :
    bb m c t (ix2 0 q) = bA m c (ix2 0 (colOf t.val q)) := by
  obtain ⟨-, -, -, -, -, -, -, -, e0, e1, -⟩ := idx_maps t
  have hN : t.val < 32 := lt_of_lt_of_eq t.isLt (show cfg0.N = 32 from N_0)
  show V m c main_v12 (((cfg0.win 4).blk t).view.emb (ix2 0 q)) = V m c main_v12 (ix2 0 (colOf t.val q))
  refine congrArg _ (funext fun a => Fin.ext ?_)
  match a with
  | ⟨0, _⟩ => show win0_4.index t (0 : Fin 2) * 1 + 1 * 0 = 0; rw [e0]
  | ⟨1, _⟩ => show win0_4.index t (1 : Fin 2) * 2048 + 1 * q.val = (t.val / 8 % 4) * 2048 + q.val; rw [e1]; omega

/-- The row-scale block is the whole column. -/
theorem rb_apply (c : Dev nD) (t : Fin cfg0.N) (p : Fin 32) :
    rb m c t (ix2 p 0) = sxA m c (ix2 p 0) := by
  obtain ⟨-, -, -, -, -, -, -, -, -, -, e0, e1, -⟩ := idx_maps t
  show V m c main_v6 (((cfg0.win 5).blk t).view.emb (ix2 p 0)) = V m c main_v6 (ix2 p 0)
  refine congrArg _ (funext fun a => Fin.ext ?_)
  match a with
  | ⟨0, _⟩ => show win0_5.index t (0 : Fin 2) * 32 + 1 * p.val = p.val; rw [e0]; omega
  | ⟨1, _⟩ => show win0_5.index t (1 : Fin 2) * 1 + 1 * 0 = 0; rw [e1]

/-! ## One step, and the accumulator after a point -/

/-- The partial product point `n` adds at an entry of its block: the sum over the 1024 rows of reduction block n % 8 of
    quantised activation times dequantised weight, in column block n / 8. -/
def addend (c : Dev nD) (n : ℕ) (i : S32x2048.Idx) : EReal :=
  ∑ r : Fin 1024, xqA m c (ix2 (i 0) (rowOf n r)) * deq (qwA m c) (scA m c) (qzA m c) (rowOf n r) (colOf n (i 1))

/-- The dequantised weights of a point's blocks are the specification's, at the point's rows and columns. -/
theorem wblk_eq (c : Dev nD) (t : Fin cfg0.N) (k : Fin 1024) (q : Fin 2048) :
    wblk (wb m c t) (sb m c t) (zb m c t) k q = deq (qwA m c) (scA m c) (qzA m c) (rowOf t.val k) (colOf t.val q) := by
  have hG : (grp (rowOf t.val k)).val = (t.val % 8) * 8 + k.val / 128 := by
    show ((t.val % 8) * 1024 + k.val) / 128 = (t.val % 8) * 8 + k.val / 128
    have := k.isLt; omega
  unfold wblk deq
  rw [wb_apply, zb_apply m c t _ q (grp (rowOf t.val k)) hG, sb_apply m c t _ q (grp (rowOf t.val k)) hG]

/-- One step at a point: the accumulator's entry plus the point's addend. -/
theorem step_apply (c : Dev nD) (t : Fin cfg0.N) (acc : Vec Ideal S32x2048 .f32) (i : S32x2048.Idx) :
    accStep (xb m c t) (wb m c t) (sb m c t) (zb m c t) acc i = acc i + addend m c t.val i := by
  obtain ⟨p, q, rfl⟩ : ∃ (p : Fin 32) (q : Fin 2048), i = ix2 p q := ⟨i 0, i 1, eq_ix2 i⟩
  rw [accStep_apply]
  unfold addend
  refine congrArg _ (Finset.sum_congr rfl fun k _ => ?_)
  rw [xb_apply, wblk_eq]

/-- The reset value is zero. -/
theorem zero_apply (i : S32x2048.Idx) : k0_pay3 (F := Ideal) i = 0 := Ideal.ofBits_zero_f32

/-- The accumulator after point `t`: the sum of the addends of the points of its column block up to it. -/
theorem scratch_apply (c : Dev nD) (t : Fin cfg0.N) (i : S32x2048.Idx) :
    (outsAt0 m c t.val t.isLt).2 i = 0 + ∑ s ∈ Finset.range (t.val % 8 + 1), addend m c (8 * (t.val / 8) + s) i := by
  have hN : cfg0.N = 32 := N_0
  have ht := t.isLt
  rw [soutsAt0_0_eq m c t]
  refine Pipeline.accAt_add_apply (fun n h => scAt0_0 m c n h (VS0_0.read (Elt Ideal) VS0_0.junk)) (scAt0_0 m c)
    (fun _ => (0 : EReal)) (addend m c) (8 * (t.val / 8)) 7 ?_ ?_ (t.val % 8) (by omega) _ i
  · intro h i
    have h0 : (8 * (t.val / 8)) % 8 = 0 := Nat.mul_mod_right 8 _
    have h1 : ¬ (8 * (t.val / 8)) % 8 = 7 := by omega
    show scAt0_0 m c (8 * (t.val / 8)) h _ i = _
    unfold scAt0_0
    rw [dif_pos h0, dif_neg h1, sout_first]
    exact (step_apply m c ⟨_, h⟩ (k0_pay3 (F := Ideal)) i).trans (by rw [zero_apply])
  · intro n h acc i hbn hnb
    have h0 : ¬ n % 8 = 0 := by omega
    unfold scAt0_0
    rw [dif_neg h0]
    by_cases h1 : n % 8 = 7
    · rw [dif_pos h1, sout_last]; exact step_apply m c ⟨n, h⟩ acc i
    · rw [dif_neg h1, sout_middle]; exact step_apply m c ⟨n, h⟩ acc i

/-! ## What the last point of a column block writes back, and the result array -/

/-- The result array, as the specification's function of the arrays the region finds. -/
def G (c : Dev nD) : S32x8192.Idx → EReal :=
  result (xqA m c) (sxA m c) (qwA m c) (scA m c) (qzA m c) (fun i => bA m c (ix2 0 (i 0)))

/-- Entry (p, q) of point `t`'s output block is entry (p, column q of column block t / 8) of the array. -/
theorem out_emb (t : Fin cfg0.N) (p : Fin 32) (q : Fin 2048) :
    ((cfg0.win 6).blk t).view.emb (ix2 p q) = ix2 p (colOf t.val q) := by
  obtain ⟨-, -, -, -, -, -, -, -, -, -, -, -, e0, e1⟩ := idx_maps t
  have hN : t.val < 32 := lt_of_lt_of_eq t.isLt (show cfg0.N = 32 from N_0)
  funext a; apply Fin.ext
  match a with
  | ⟨0, _⟩ => show win0_6.index t (0 : Fin 2) * 32 + 1 * p.val = p.val; rw [e0]; omega
  | ⟨1, _⟩ => show win0_6.index t (1 : Fin 2) * 2048 + 1 * q.val = (t.val / 8 % 4) * 2048 + q.val; rw [e1]; omega

/-- The eight addends of a column block add up to the whole sum over the 8192 reduction rows. -/
theorem addends_sum (c : Dev nD) (t : Fin cfg0.N) (p : Fin 32) (q : Fin 2048) :
    ∑ s ∈ Finset.range 8, addend m c (8 * (t.val / 8) + s) (ix2 p q)
      = ∑ k : Fin 8192, xqA m c (ix2 p k) * deq (qwA m c) (scA m c) (qzA m c) k (colOf t.val q) := by
  rw [sum_blocks]
  refine Finset.sum_congr rfl fun s hs => ?_
  have hs8 : s < 8 := Finset.mem_range.mp hs
  unfold addend
  refine Finset.sum_congr rfl fun r _ => ?_
  have hr : rowOf (8 * (t.val / 8) + s) r = rowOf s r := Fin.ext (by
    show ((8 * (t.val / 8) + s) % 8) * 1024 + r.val = (s % 8) * 1024 + r.val; omega)
  have hc : colOf (8 * (t.val / 8) + s) q = colOf t.val q := Fin.ext (by
    show ((8 * (t.val / 8) + s) / 8 % 4) * 2048 + q.val = (t.val / 8 % 4) * 2048 + q.val; omega)
  rw [hr, hc]

/-- What a flushing point writes back is its block of the result. -/
theorem flushed_eq (c : Dev nD) (t : Fin cfg0.N) (hf : (cfg0.win 6).flush t = true) :
    (dats m 0 c).flushed 6 t = ((cfg0.win 6).blk t).view.read (Elt Ideal) (G m c) := by
  have h1 : t.val % 8 = 7 := (flush0_6 t).mp hf
  have h0 : ¬ t.val % 8 = 0 := by omega
  have hs : accStep (xb m c t) (wb m c t) (sb m c t) (zb m c t) (outsAt0 m c (t.val - 1) (Nat.lt_of_le_of_lt (Nat.sub_le _ _) t.isLt)).2
      = (outsAt0 m c t.val t.isLt).2 := by
    rw [outsAt0_C m c t h0 h1]; dsimp only
    exact (sout_last ..).symm
  rw [flushed6_C m c t h0 h1, out_last]
  funext y
  obtain ⟨p, q, rfl⟩ : ∃ (p : Fin 32) (q : Fin 2048), y = ix2 p q := ⟨y 0, y 1, eq_ix2 y⟩
  show k0_pay2 (F := Ideal) (accStep (xb m c t) (wb m c t) (sb m c t) (zb m c t) (outsAt0 m c (t.val - 1) _).2) (rb m c t) (bb m c t) (ix2 p q)
      = G m c (((cfg0.win 6).blk t).view.emb (ix2 p q))
  rw [rescale_apply, hs, scratch_apply, rb_apply, bb_apply, out_emb, h1, zero_add, addends_sum]
  rfl

/-- An index of the array is in point `t`'s block iff each coordinate is in the block's range on its axis. -/
theorem mem_blk (t : Fin cfg0.N) (i : S32x8192.Idx) :
    i ∈ ((cfg0.win 6).blk t).view.set ↔ ∀ a : Fin 2, win0_6.index t a * S32x2048.size a ≤ (i a).val
      ∧ (i a).val < win0_6.index t a * S32x2048.size a + S32x2048.size a := by
  show i ∈ ((View.whole main_v13).slice (win0_6.rect t)).set ↔ _
  rw [View.set_slice_whole, Rect.mem_set_unit]
  exact Iff.rfl

/-- The last points of the four column blocks cover the array. -/
theorem cover (i : S32x8192.Idx) : ∃ t : Fin cfg0.N, (cfg0.win 6).flush t = true ∧ i ∈ ((cfg0.win 6).blk t).view.set := by
  have hi0 : (i 0).val < 32 := (i 0).isLt
  have hi1 : (i 1).val < 8192 := (i 1).isLt
  have hN : cfg0.N = 32 := N_0
  have hlt : 8 * ((i 1).val / 2048) + 7 < cfg0.N := by omega
  refine ⟨⟨8 * ((i 1).val / 2048) + 7, hlt⟩, (flush0_6 _).mpr (by show (8 * ((i 1).val / 2048) + 7) % 8 = 7; omega), ?_⟩
  obtain ⟨-, -, -, -, -, -, -, -, -, -, -, -, e0, e1⟩ := idx_maps ⟨8 * ((i 1).val / 2048) + 7, hlt⟩
  have e1' : win0_6.index ⟨8 * ((i 1).val / 2048) + 7, hlt⟩ (1 : Fin 2) = (8 * ((i 1).val / 2048) + 7) / 8 := e1
  rw [mem_blk]
  intro a
  match a with
  | ⟨0, _⟩ =>
    show win0_6.index ⟨8 * ((i 1).val / 2048) + 7, hlt⟩ (0 : Fin 2) * 32 ≤ (i 0).val
      ∧ (i 0).val < win0_6.index ⟨8 * ((i 1).val / 2048) + 7, hlt⟩ (0 : Fin 2) * 32 + 32
    rw [e0]; omega
  | ⟨1, _⟩ =>
    show win0_6.index ⟨8 * ((i 1).val / 2048) + 7, hlt⟩ (1 : Fin 2) * 2048 ≤ (i 1).val
      ∧ (i 1).val < win0_6.index ⟨8 * ((i 1).val / 2048) + 7, hlt⟩ (1 : Fin 2) * 2048 + 2048
    rw [e1']; omega

/-- The result array after the run. -/
theorem final (c : Dev nD) : (dats m 0 c).arrAt 6 cfg0.N = G m c :=
  (dats m 0 c).arrAt_eq_of_cover 6 (G m c) (flushed_eq m c) (cover)

/-- The run, read: the result array at the specification's function, the arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.KValue

end
-- ==== Proof.RefSide.lean ====
/-
  The reference's result, as the function the specification names.

  The reference reshapes the weight codes to [64 groups, 128 rows, 8192 columns], subtracts each group's zero point and
  multiplies by its scale, reshapes back to [8192, 8192], multiplies the quantised activations by it, rescales each row
  and adds the bias. Read at an entry, reduction row k of the dequantised matrix is row k % 128 of group k / 128 — the
  two reshapes cancel — so it is exactly the specification's dequantised weight, and the product is the plain sum over
  the 8192 reduction rows.
-/
import proofs.«136339_j54468775248391_1_alg».proof.Proof.Gen.ReferenceIdeal.Read
import proofs.«136339_j54468775248391_1_alg».proof.Proof.Spec
import Idealize.ShloMosaic.Lib.ValueIdx

noncomputable section

open scoped BigOperators

namespace Cert.ReferenceIdeal.RefValue

open Cert.ReferenceIdeal Cert.ReferenceIdeal.Read Cert.W4A8
open Idealize.ShloMosaic Idealize.ShloMosaic.ValueIdx

/-- The dequantised weight matrix of the reference at (k, n) is the specification's. -/
theorem weight_apply (x1 : (⟨S8192x8192, .i32⟩ : BufTy).Contents (Elt Ideal)) (x2 : (⟨S64x8192, .f32⟩ : BufTy).Contents (Elt Ideal))
    (x3 : (⟨S64x8192, .i32⟩ : BufTy).Contents (Elt Ideal)) (k n : Fin 8192) :
    val_main_v20 (F := Ideal) x1 x2 x3 (ix2 k n) = deq x1 x2 x3 k n := by
  have hk := k.isLt
  have hn := n.isLt
  rw [val_main_v20_apply, val_main_v19_apply, val_main_v16_apply, val_main_v12_apply, val_main_v11_apply, val_main_v15_apply,
    val_main_v14_apply, val_main_v13_apply, val_main_v18_apply, val_main_v17_apply]
  have e1 : idx_main_v11 (idx_main_v20 (ix2 k n)) = ix2 k n := funext fun a => Fin.ext (by
    match a with
    | ⟨0, _⟩ =>
      show (((k.val * 8192 + n.val) / 1048576 * 128 + (k.val * 8192 + n.val) / 8192 % 128) * 8192 + (k.val * 8192 + n.val) % 8192) / 8192 = k.val
      omega
    | ⟨1, _⟩ =>
      show (((k.val * 8192 + n.val) / 1048576 * 128 + (k.val * 8192 + n.val) / 8192 % 128) * 8192 + (k.val * 8192 + n.val) % 8192) % 8192 = n.val
      omega)
  have e2 : idx_main_v13 (idx_main_v15 (idx_main_v20 (ix2 k n))) = ix2 (grp k) n := funext fun a => Fin.ext (by
    match a with
    | ⟨0, _⟩ => show (k.val * 8192 + n.val) / 1048576 = k.val / 128; omega
    | ⟨1, _⟩ => show (k.val * 8192 + n.val) % 8192 = n.val; omega)
  have e3 : idx_main_v17 (idx_main_v18 (idx_main_v20 (ix2 k n))) = ix2 (grp k) n := funext fun a => Fin.ext (by
    match a with
    | ⟨0, _⟩ => show (k.val * 8192 + n.val) / 1048576 = k.val / 128; omega
    | ⟨1, _⟩ => show (k.val * 8192 + n.val) % 8192 = n.val; omega)
  rw [e1, e2, e3]
  rfl

/-- The reference's result is the specification's function of its own quantised activations and row scales, the weight
    codes, the group scales and zero points, and the bias. -/
theorem ref_is_result (x0 : (⟨S32x8192, .f32⟩ : BufTy).Contents (Elt Ideal)) (x1 : (⟨S8192x8192, .i32⟩ : BufTy).Contents (Elt Ideal))
    (x2 : (⟨S64x8192, .f32⟩ : BufTy).Contents (Elt Ideal)) (x3 : (⟨S64x8192, .i32⟩ : BufTy).Contents (Elt Ideal))
    (x4 : (⟨S8192, .f32⟩ : BufTy).Contents (Elt Ideal)) :
    val_main_v26 (F := Ideal) x0 x1 x2 x3 x4 = result (val_main_v10 (F := Ideal) x0) (val_main_v6 (F := Ideal) x0) x1 x2 x3 x4 := by
  funext i
  obtain ⟨p, n, rfl⟩ : ∃ (p : Fin 32) (n : Fin 8192), i = ix2 p n := ⟨i 0, i 1, eq_ix2 i⟩
  rw [val_main_v26_apply, val_main_v23_apply, val_main_v21_apply, val_main_v22_apply, val_main_v25_apply, val_main_v24_apply]
  have el : ∀ k : Fin 8192, lidx_main_v21 (ix2 p n) k = ix2 p k := fun k => funext fun a => by
    match a with
    | ⟨0, _⟩ => rfl
    | ⟨1, _⟩ => rfl
  have er : ∀ k : Fin 8192, ridx_main_v21 (ix2 p n) k = ix2 k n := fun k => funext fun a => by
    match a with
    | ⟨0, _⟩ => rfl
    | ⟨1, _⟩ => rfl
  have es : idx_main_v22 (ix2 p n) = ix2 p 0 := funext fun a => by
    match a with
    | ⟨0, _⟩ => rfl
    | ⟨1, _⟩ => rfl
  have eb : idx_main_v24 (idx_main_v25 (ix2 p n)) = ix1 n := funext fun a => by
    match a with
    | ⟨0, _⟩ => rfl
  simp only [el, er, es, eb, weight_apply]
  rfl

end Cert.ReferenceIdeal.RefValue

end
-- ==== Proof.Bridge.lean ====
/-
  The arrays the kernel's region finds, in terms of the program's arguments.

  Before the region the kernel's program quantises the activations with the very operations the reference uses
  (absolute value, row maximum, the floor 1e-8, division by 127, rounding, clipping to ±127); it then narrows the
  quantised activations to the shorter float format, which over the reals changes nothing, and reshapes the bias to one
  row. So the quantised activations and the row scales the region finds are the reference's own stages of the same
  argument, and the bias row is the bias.
-/
import proofs.«136339_j54468775248391_1_alg».proof.Proof.KernelValue
import proofs.«136339_j54468775248391_1_alg».proof.Proof.RefSide
import Idealize.ShloMosaic.Lib.StableHlo.Run

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The quantised activations the region finds are the reference's stage of the activations. -/
theorem xq_eq (c : Dev nD) :
    (V m c main_v11 : S32x8192.Idx → EReal) = Cert.ReferenceIdeal.Read.val_main_v10 (F := Ideal) (m ((c : Thread nD τ).loc main_arg0)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The row scales the region finds are the reference's stage of the activations. -/
theorem sx_eq (c : Dev nD) :
    (V m c main_v6 : S32x1.Idx → EReal) = Cert.ReferenceIdeal.Read.val_main_v6 (F := Ideal) (m ((c : Thread nD τ).loc main_arg0)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The bias row the region finds is the bias. -/
theorem bias_eq (c : Dev nD) (n : Fin 8192) :
    (V m c main_v12 : S1x8192.Idx → EReal) (ix2 0 n) = m ((c : Thread nD τ).loc main_arg4) (ix1 n) := by
  have e : (V m c main_v12 : S1x8192.Idx → EReal) = shapeCast S1x8192 (m ((c : Thread nD τ).loc main_arg4)) shapeCasts_S8192_S1x8192 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results_simp <;> rfl
  rw [e]
  exact shapeCast_apply _ shapeCasts_S8192_S1x8192 (ix2 0 n) (ix1 n) (by
    rewrite [Shape.rowMajor_val_one, Shape.rowMajor_val_two]
    show n.val = 0 * 8192 + n.val; omega)

end Cert.Bridge

end
-- ==== Proof.lean ====
/-
  A 4-bit-weight, quantised-activation linear layer: the kernel against its reference, over the extended reals.

  Both programs quantise the activations per row in the same way (the row's largest absolute value, floored at 1e-8 and
  divided by 127, is the row's scale s(p); xq (p, k) is x (p, k) / s(p) rounded and clipped to ±127), dequantise the
  integer weight codes group by group, w (k, n) = (qw (k, n) - qz (k / 128, n)) · sc (k / 128, n), and return

      out (p, n) = (∑ k < 8192, xq (p, k) · w (k, n)) · s (p) + bias (n).

  The reference takes the sum at once. The kernel walks a 4 x 8 grid: for each block of 2048 output columns it adds,
  over the 8 blocks of 1024 reduction rows, the block's partial product into an accumulator that starts at zero, and
  after the last one rescales, adds the bias and writes the block back. Its narrowing of activations and weights to a
  shorter float format is the identity over the reals. So the two results differ only in how one sum of 8192 terms is
  grouped, and addition on the extended reals is commutative and associative: the results are equal, for all inputs —
  the finiteness of the inputs is never used.

  The three frames: the two kernels' are the generated frame certificates; the reference has no kernel, and its frame is
  its run with the result dropped. The idealization rewrote nothing, so it is preserved trivially.
-/
import proofs.«136339_j54468775248391_1_alg».proof.Defs
import proofs.«136339_j54468775248391_1_alg».proof.Proof.Gen.Kernel
import proofs.«136339_j54468775248391_1_alg».proof.Proof.Gen.Kernel.Skeleton
import proofs.«136339_j54468775248391_1_alg».proof.Proof.Gen.Kernel.Launch
import proofs.«136339_j54468775248391_1_alg».proof.Proof.Gen.Kernel.Points
import proofs.«136339_j54468775248391_1_alg».proof.Proof.Gen.Kernel.Frame
import proofs.«136339_j54468775248391_1_alg».proof.Proof.Gen.KernelIdeal
import proofs.«136339_j54468775248391_1_alg».proof.Proof.Gen.KernelIdeal.Skeleton
import proofs.«136339_j54468775248391_1_alg».proof.Proof.Gen.KernelIdeal.Launch
import proofs.«136339_j54468775248391_1_alg».proof.Proof.Gen.KernelIdeal.Points
import proofs.«136339_j54468775248391_1_alg».proof.Proof.Gen.KernelIdeal.Frame
import proofs.«136339_j54468775248391_1_alg».proof.Proof.Gen.ReferenceIdeal
import proofs.«136339_j54468775248391_1_alg».proof.Proof.Gen.Pre_finite_inputs
import proofs.«136339_j54468775248391_1_alg».proof.Proof.Gen.KernelIdeal.Value
import proofs.«136339_j54468775248391_1_alg».proof.Proof.Gen.ReferenceIdeal.Run
import proofs.«136339_j54468775248391_1_alg».proof.Proof.Gen.ReferenceIdeal.Read
import proofs.«136339_j54468775248391_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the reference's are the same function of arguments that
    agree: the quantised activations and row scales are the same stages of the activations, the bias row is the bias,
    and the blockwise sum is the whole sum. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq (F := Ideal) _ _ _ _ _).trans ?_
  rw [Cert.ReferenceIdeal.RefValue.ref_is_result, (hagree c).1, (hagree c).2.1, (hagree c).2.2.1, (hagree c).2.2.2.1,
    (hagree c).2.2.2.2]
  have hb : (fun i : Cert.W4A8.SBias.Idx =>
      (Cert.KernelIdeal.Gen.V m c Cert.KernelIdeal.main_v12 : Cert.KernelIdeal.S1x8192.Idx → EReal) (ix2 0 (i 0)))
      = m ((c.tc : Thread Cert.KernelIdeal.nD Cert.KernelIdeal.τ).loc Cert.KernelIdeal.main_arg4) :=
    funext fun i => (Cert.Bridge.bias_eq m c (i 0)).trans (congrArg _ (eq_ix1 i).symm)
  show _ = Cert.W4A8.result (Cert.KernelIdeal.Gen.V m c Cert.KernelIdeal.main_v11) (Cert.KernelIdeal.Gen.V m c Cert.KernelIdeal.main_v6)
    (Cert.KernelIdeal.Gen.V m c Cert.KernelIdeal.main_arg1) (Cert.KernelIdeal.Gen.V m c Cert.KernelIdeal.main_arg2)
    (Cert.KernelIdeal.Gen.V m c Cert.KernelIdeal.main_arg3)
    (fun i => (Cert.KernelIdeal.Gen.V m c Cert.KernelIdeal.main_v12 : Cert.KernelIdeal.S1x8192.Idx → EReal) (ix2 0 (i 0)))
  rw [hb, Cert.Bridge.xq_eq, Cert.Bridge.sx_eq, Cert.KernelIdeal.Gen.V_main_arg1, Cert.KernelIdeal.Gen.V_main_arg2,
    Cert.KernelIdeal.Gen.V_main_arg3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
